-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x1 : Shape := ⟨2, ![10000, 1]⟩
abbrev S512x512 : Shape := ⟨2, ![512, 512]⟩
abbrev S512 : Shape := ⟨1, ![512]⟩
abbrev S160000 : Shape := ⟨1, ![160000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x1 : S_.BroadcastsInDim S10000x1 (![] : Fin 0 → Fin S10000x1.rank)
  reducesTo_S10000x1_S_d0_1 : S10000x1.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x512 .f32) (main_arg1 : FVec F S10000x1 .f32) (main_arg2 : FVec F S512x512 .f32) (main_arg3 : FVec F S512 .f32) (main_arg4 : IVec S160000 32) (main_arg5 : IVec S160000 32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x1 .f32 := Host.absf main_arg1
  let main_cst_0 : FVec F S_ .f32 := constant S_ .f32 0x7F800000#32
  let main_v5 : FVec F S10000x1 .f32 := broadcastInDim S10000x1 ![] bcast_S_S10000x1 main_cst_0
  let main_v6 : IVec S10000x1 1 := cmpf .olt main_v4 main_v5
  let main_c_1 : IVec S_ 1 := constantI S_ 1 1#1
  let main_v7 : IVec S_ 1 := (fun x v => Host.reduce IntOp.andi x v reducesTo_S10000x1_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x512 : Shape := ⟨2, ![10000, 512]⟩
abbrev S10000x1 : Shape := ⟨2, ![10000, 1]⟩
abbrev S512x512 : Shape := ⟨2, ![512, 512]⟩
abbrev S512 : Shape := ⟨1, ![512]⟩
abbrev S160000 : Shape := ⟨1, ![160000]⟩
abbrev S1000x512 : Shape := ⟨2, ![1000, 512]⟩
abbrev S1000x1 : Shape := ⟨2, ![1000, 1]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 21
  | .vmem => 14
  | .smem => 0
  | _ => 0

abbrev bufTy : (tb : Table) → Fin (tcTables nBuf tb) → BufTy
  | .hbm, ⟨0, _⟩ => ⟨S10000x512, .f32⟩
  | .hbm, ⟨1, _⟩ => ⟨S10000x1, .f32⟩
  | .hbm, ⟨2, _⟩ => ⟨S512x512, .f32⟩
  | .hbm, ⟨3, _⟩ => ⟨S512, .f32⟩
  | .hbm, ⟨4, _⟩ => ⟨S160000, .i32⟩
  | .hbm, ⟨5, _⟩ => ⟨S160000, .i32⟩
  | .hbm, ⟨6, _⟩ => ⟨S10000x512, .f32⟩
  | .hbm, ⟨7, _⟩ => ⟨S_, .i32⟩
  | .hbm, ⟨8, _⟩ => ⟨S160000, .i32⟩
  | .hbm, ⟨9, _⟩ => ⟨S160000, .i1⟩
  | .hbm, ⟨10, _⟩ => ⟨S_, .i32⟩
  | .hbm, ⟨11, _⟩ => ⟨S160000, .i32⟩
  | .hbm, ⟨12, _⟩ => ⟨S160000, .i32⟩
  | .hbm, ⟨13, _⟩ => ⟨S160000, .i32⟩
  | .hbm, ⟨14, _⟩ => ⟨S160000x1, .i32⟩
  | .hbm, ⟨15, _⟩ => ⟨S160000x512, .f32⟩
  | .hbm, ⟨16, _⟩ => ⟨S_, .f32⟩
  | .hbm, ⟨17, _⟩ => ⟨S10000x512, .f32⟩
  | .hbm, ⟨18, _⟩ => ⟨S160000x1, .i32⟩
  | .hbm, ⟨19, _⟩ => ⟨S10000x512, .f32⟩
  | .hbm, ⟨20, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .f32⟩
  | .local _ .vmem, ⟨3, _⟩ => ⟨S1000x1, .f32⟩
  | .local _ .vmem, ⟨4, _⟩ => ⟨S1000x1, .f32⟩
  | .local _ .vmem, ⟨5, _⟩ => ⟨S1000x512, .f32⟩
  | .local _ .vmem, ⟨6, _⟩ => ⟨S1000x512, .f32⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S512, .f32⟩
  | .local _ .vmem, ⟨12, _⟩ => ⟨S1000x512, .f32⟩
  | .local _ .vmem, ⟨13, _⟩ => ⟨S1000x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1000x1_S1000x1_0_0 : ∀ a, (![0, 0] : Fin 2 → Nat) a + S1000x1.size a ≤ S1000x1.size a
  h_S1000x1 : 0 < S1000x1.numel
  broadcasts_S1000x1_S1000x512 : S1000x1.Broadcasts S1000x512
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  inb_S512_S512_0 : ∀ a, (![0] : Fin 1 → Nat) a + S512.size a ≤ S512.size a
  h_S512 : 0 < S512.numel
  shapeCasts_S512_S1x512 : S512.ShapeCasts S1x512
  shapeCasts_S1x512_S1x512 : S1x512.ShapeCasts S1x512
  broadcasts_S1x512_S1000x512 : S1x512.Broadcasts S1000x512
  shapeCasts_S1000x512_S1000x512 : S1000x512.ShapeCasts S1000x512
  dot_S1000x512_S512x512_S1000x512_1_0_0_1_n_n_wf : DotDims.WF S1000x512 S512x512 S1000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S10000x512.size a
  hwx0_3 : ∀ i : grid0.Coords, EltTy.bits .f32 = 32 ∨ (Rect.block (s := S10000x512) S1000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S10000x512.size a
  hwx1_0 : ∀ i : grid1.Coords, EltTy.bits .f32 = 32 ∨ (Rect.block (s := S10000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S10000x1.size a
  hwx1_1 : ∀ i : grid1.Coords, EltTy.bits .f32 = 32 ∨ (Rect.block (s := S10000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S10000x512.size a
  hwx1_3 : ∀ i : grid1.Coords, EltTy.bits .f32 = 32 ∨ (Rect.block (s := S10000x512) S1000x512.size (cc1_transform_3 i) (hinb1_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x1 : Shape := ⟨2, ![10000, 1]⟩
abbrev S512x512 : Shape := ⟨2, ![512, 512]⟩
abbrev S512 : Shape := ⟨1, ![512]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S1x512 : Shape := ⟨2, ![1, 512]⟩

abbrev nBuf : Space → Nat
  | .hbm => 27
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x1, .f32⟩
  | .hbm, ⟨2, _⟩ => ⟨S512x512, .f32⟩
  | .hbm, ⟨3, _⟩ => ⟨S512, .f32⟩
  | .hbm, ⟨4, _⟩ => ⟨S160000, .i32⟩
  | .hbm, ⟨5, _⟩ => ⟨S160000, .i32⟩
  | .hbm, ⟨6, _⟩ => ⟨S10000x512, .f32⟩
  | .hbm, ⟨7, _⟩ => ⟨S10000x512, .f32⟩
  | .hbm, ⟨8, _⟩ => ⟨S10000x512, .f32⟩
  | .hbm, ⟨9, _⟩ => ⟨S_, .i32⟩
  | .hbm, ⟨10, _⟩ => ⟨S160000, .i32⟩
  | .hbm, ⟨11, _⟩ => ⟨S160000, .i1⟩
  | .hbm, ⟨12, _⟩ => ⟨S_, .i32⟩
  | .hbm, ⟨13, _⟩ => ⟨S160000, .i32⟩
  | .hbm, ⟨14, _⟩ => ⟨S160000, .i32⟩
  | .hbm, ⟨15, _⟩ => ⟨S160000, .i32⟩
  | .hbm, ⟨16, _⟩ => ⟨S160000x1, .i32⟩
  | .hbm, ⟨17, _⟩ => ⟨S160000x512, .f32⟩
  | .hbm, ⟨18, _⟩ => ⟨S_, .f32⟩
  | .hbm, ⟨19, _⟩ => ⟨S10000x512, .f32⟩
  | .hbm, ⟨20, _⟩ => ⟨S160000x1, .i32⟩
  | .hbm, ⟨21, _⟩ => ⟨S10000x512, .f32⟩
  | .hbm, ⟨22, _⟩ => ⟨S10000x512, .f32⟩
  | .hbm, ⟨23, _⟩ => ⟨S10000x512, .f32⟩
  | .hbm, ⟨24, _⟩ => ⟨S1x512, .f32⟩
  | .hbm, ⟨25, _⟩ => ⟨S10000x512, .f32⟩
  | .hbm, ⟨26, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S10000x1_S10000x512_0_1 : S10000x1.BroadcastsInDim S10000x512 (![0, 1] : Fin 2 → Fin S10000x512.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.LibBroadcastColumn.lean ====
/-
  A column broadcast along its unit axis, read at one entry: an [a, 1] array broadcast to [a, b] holds, at (p, c), the
  column's entry at row p.
-/
import Idealize.ShloMosaic.Lib.ValueIdx
import Idealize.ShloMosaic.Lib.ValueLayout
import Idealize.ShloMosaic.Lib.Pipeline.Value

noncomputable section

namespace Cert.Gcn

open Idealize.ShloMosaic Idealize.ShloMosaic.ValueIdx

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Gcn

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Region0.lean ====
/-
  The first kernel region as a function of whole arrays.  Grid point t works on rows 1000·t … 1000·t + 999: it reads
  those rows of the features and of the per-row scale (a column), and the whole weight matrix, and writes
  (features · weight) · scale to the same rows of its result.  A change of float format is the identity on the extended
  reals and the product into the zero accumulator is the plain sum over the contracted coordinate, so the result array
  ends holding, at (r, q), (Σ_l features (r, l) · weight (l, q)) · scale (r, 0).
-/
import proofs.«112239_j19911468384503_1_alg».proof.Proof.Gen.KernelIdeal.Frame
import proofs.«112239_j19911468384503_1_alg».proof.Proof.LibBroadcastColumn
import proofs.«112239_j19911468384503_1_alg».proof.Proof.LibMatmulPlain
import Idealize.ShloMosaic.Lib.Pipeline.Value
import Idealize.ShloMosaic.Lib.ValueIdx
import Idealize.ShloMosaic.Lib.ValueLayout

noncomputable section

namespace Cert.KernelIdeal.MatmulNorm

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-- The region's result as one function of the features, the weight and the scale column. -/
def scaledProduct (h : S10000x512.Idx → EReal) (w : S512x512.Idx → EReal) (n : S10000x1.Idx → EReal) : S10000x512.Idx → EReal :=
  fun i => (∑ l : Fin 512, h (ix2 (n0 := 10000) (n1 := 512) (i 0) l) * w (ix2 (n0 := 512) (n1 := 512) l (i 1)))
    * n (ix2 (n0 := 10000) (n1 := 1) (i 0) 0)

theorem hz2 : (![0, 0] : Fin 2 → Nat) = fun _ => 0 := funext fun a => by fin_cases a <;> rfl

/-- The body's product contracts the left columns with the right rows and has no batch axis. -/
theorem dot_plain : IsPlain (M := 1000) (K := 512) (N := 512) dot_S1000x512_S512x512_S1000x512_1_0_0_1_n_n :=
  ⟨rfl, rfl, rfl, rfl, rfl, rfl⟩

/-- The body's stored value at entry (p, q) of the block. -/
theorem pay_apply (v0 : Vec Ideal S1000x512 .f32) (v2 : Vec Ideal S512x512 .f32) (v5 : Vec Ideal S1000x1 .f32) (p : Fin 1000) (q : Fin 512) :
    k0_pay1 (F := Ideal) v0 v2 v5 (ix2 p q) = (∑ l : Fin 512, v0 (ix2 p l) * v2 (ix2 l q)) * v5 (ix2 p (0 : Fin 1)) := by
  unfold k0_pay1
  rw [mulf_apply, broadcastTo_a1_ab_apply]
  rw [matmul_plain_apply (M := 1000) (K := 512) (N := 512) dot_S1000x512_S512x512_S1000x512_1_0_0_1_n_n dot_plain]
  rfl

variable (V : (c : Dev nD) → (b : Ref sig .tc) → Buf (Elt Ideal) ((c : Thread nD τ).loc b))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows 1000·t … of the array. -/
theorem feat_block (c : Dev nD) (t : Fin cfg0.N) (x : S1000x512.Idx) (k : S10000x512.Idx)
    (hk0 : (k 0).val = t.val * 1000 + (x 0).val) (hk1 : (k 1).val = (x 1).val) :
    (iblk0 V c 0 t : Vec Ideal S1000x512 .f32) x = (V c main_arg0 : S10000x512.Idx → EReal) k := by
  obtain ⟨e0, e1, -⟩ := idx_facts t
  unfold iblk0
  rw [View.read_apply]
  show (V c main_arg0 : S10000x512.Idx → EReal) _ = _
  congr 1
  funext a
  apply Fin.ext
  match a with
  | ⟨0, _⟩ => show win0_0.index t (0 : Fin 2) * 1000 + 1 * (x 0).val = (k 0).val; rw [e0, hk0]; omega
  | ⟨1, _⟩ => show win0_0.index t (1 : Fin 2) * 512 + 1 * (x 1).val = (k 1).val; rw [e1, hk1]; omega

/-- The weight's block at every point is the whole matrix. -/
theorem weight_block (c : Dev nD) (t : Fin cfg0.N) (x : S512x512.Idx) :
    (iblk0 V c 1 t : Vec Ideal S512x512 .f32) x = (V c main_arg2 : S512x512.Idx → EReal) x := by
  obtain ⟨-, -, e0, e1, -⟩ := idx_facts t
  unfold iblk0
  rw [View.read_apply]
  show (V c main_arg2 : S512x512.Idx → EReal) _ = _
  congr 1
  funext a
  apply Fin.ext
  match a with
  | ⟨0, _⟩ => show win0_1.index t (0 : Fin 2) * 512 + 1 * (x 0).val = (x 0).val; rw [e0]; omega
  | ⟨1, _⟩ => show win0_1.index t (1 : Fin 2) * 512 + 1 * (x 1).val = (x 1).val; rw [e1]; omega

/-- The scale's block at point `t` is rows 1000·t … of the column. -/
theorem scale_block (c : Dev nD) (t : Fin cfg0.N) (x : S1000x1.Idx) (k : S10000x1.Idx)
    (hk0 : (k 0).val = t.val * 1000 + (x 0).val) :
    (iblk0 V c 2 t : Vec Ideal S1000x1 .f32) x = (V c main_arg1 : S10000x1.Idx → EReal) k := by
  obtain ⟨-, -, -, -, e0, e1, -⟩ := idx_facts t
  unfold iblk0
  rw [View.read_apply]
  show (V c main_arg1 : S10000x1.Idx → EReal) _ = _
  congr 1
  funext a
  apply Fin.ext
  match a with
  | ⟨0, _⟩ => show win0_2.index t (0 : Fin 2) * 1000 + 1 * (x 0).val = (k 0).val; rw [e0, hk0]; omega
  | ⟨1, _⟩ =>
    show win0_2.index t (1 : Fin 2) * 1 + 1 * (x 1).val = (k 1).val
    have h1 : (x 1).val < 1 := (x 1).isLt
    have h2 : (k 1).val < 1 := (k 1).isLt
    rw [e1]; omega

/-- What point `t` writes back is block `t` of `scaledProduct` of the arrays as the region finds them. -/
theorem flushed_eq (c : Dev nD) (t : Fin cfg0.N) :
    (dat0 V c).flushed 3 t = ((cfg0.win 3).blk t).view.read (Elt Ideal)
      (scaledProduct (V c main_arg0) (V c main_arg2) (V c main_arg1)) := by
  show (cfg0.win 3).cut (grid0.coords t) ((dat0 V c).after 3 t) = _
  rw [after0_3]
  unfold out0_3
  rw [View.canon_unit_zero hz2]
  simp only [View.ld_unit_zero (S := S1000x512) hz2, View.ld_unit_zero (S := S1000x1) hz2, View.ld_unit_zero (S := S512x512) hz2]
  obtain ⟨-, -, -, -, -, -, e0, e1⟩ := idx_facts t
  funext j
  obtain ⟨p, q, rfl⟩ : ∃ (p : Fin 1000) (q : Fin 512), j = ix2 p q := ⟨j 0, j 1, eq_ix2 j⟩
  show k0_pay1 (F := Ideal) (iblk0 V c 0 t) (iblk0 V c 1 t) (iblk0 V c 2 t) (ix2 p q)
    = scaledProduct (V c main_arg0) (V c main_arg2) (V c main_arg1) (((cfg0.win 3).blk t).view.emb (ix2 p q))
  rw [pay_apply]
  have hk0 : ((((cfg0.win 3).blk t).view.emb (ix2 p q)) 0).val = t.val * 1000 + p.val := by
    show win0_3.index t (0 : Fin 2) * 1000 + 1 * p.val = _; rw [e0]; omega
  have hk1 : ((((cfg0.win 3).blk t).view.emb (ix2 p q)) 1).val = q.val := by
    show win0_3.index t (1 : Fin 2) * 512 + 1 * q.val = _; rw [e1]; omega
  unfold scaledProduct
  rw [scale_block V c t (ix2 p (0 : Fin 1)) (ix2 (n0 := 10000) (n1 := 1) ((((cfg0.win 3).blk t).view.emb (ix2 p q)) 0) 0) hk0]
  refine congrArg (· * _) (Finset.sum_congr rfl fun l _ => ?_)
  rw [feat_block V c t (ix2 p l) (ix2 (n0 := 10000) (n1 := 512) ((((cfg0.win 3).blk t).view.emb (ix2 p q)) 0) l) hk0 rfl,
    weight_block V c t (ix2 l q)]
  congr 2
  funext a
  apply Fin.ext
  match a with
  | ⟨0, _⟩ => rfl
  | ⟨1, _⟩ => exact hk1.symm

/-- An index of the result array is in point `t`'s block iff each coordinate is in the block's range on its axis. -/
theorem mem_blk (t : Fin cfg0.N) (i : S10000x512.Idx) :
    i ∈ ((cfg0.win 3).blk t).view.set ↔ ∀ a : Fin 2, win0_3.index t a * S1000x512.size a ≤ (i a).val
      ∧ (i a).val < win0_3.index t a * S1000x512.size a + S1000x512.size a := by
  show i ∈ ((View.whole main_v0).slice (win0_3.rect t)).set ↔ _
  rw [View.set_slice_whole, Rect.mem_set_unit]
  exact Iff.rfl

/-- Row r lies in the block of point r / 1000: the ten row blocks cover the array. -/
theorem covered (i : S10000x512.Idx) : ∃ t : Fin cfg0.N, (cfg0.win 3).flush t = true ∧ i ∈ ((cfg0.win 3).blk t).view.set := by
  have hi0 : (i 0).val < 10000 := (i 0).isLt
  have hi1 : (i 1).val < 512 := (i 1).isLt
  have hN : cfg0.N = 10 := N_0
  let t : Fin cfg0.N := ⟨(i 0).val / 1000, by rw [hN]; omega⟩
  have ht : t.val = (i 0).val / 1000 := rfl
  obtain ⟨e0, e1⟩ : win0_3.index t (0 : Fin 2) = t.val ∧ win0_3.index t (1 : Fin 2) = 0 := by
    have h := idx_facts t; exact ⟨h.2.2.2.2.2.2.1, h.2.2.2.2.2.2.2⟩
  refine ⟨t, flush0_3 t, ?_⟩
  rw [mem_blk]
  intro a
  match a with
  | ⟨0, _⟩ =>
    show win0_3.index t (0 : Fin 2) * 1000 ≤ (i 0).val ∧ (i 0).val < win0_3.index t (0 : Fin 2) * 1000 + 1000
    rw [e0, ht]; omega
  | ⟨1, _⟩ =>
    show win0_3.index t (1 : Fin 2) * 512 ≤ (i 1).val ∧ (i 1).val < win0_3.index t (1 : Fin 2) * 512 + 512
    rw [e1]; omega

/-- The result array after the region: `scaledProduct` of the arrays as the region finds them. -/
theorem final (c : Dev nD) : (dat0 V c).arrAt 3 cfg0.N = scaledProduct (V c main_arg0) (V c main_arg2) (V c main_arg1) :=
  (dat0 V c).arrAt_eq_of_cover 3 (scaledProduct (V c main_arg0) (V c main_arg2) (V c main_arg1)) (fun t _ => flushed_eq V c t) covered

end Cert.KernelIdeal.MatmulNorm

end
-- ==== Proof.Region1.lean ====
/-
  The second kernel region as a function of whole arrays.  Grid point t works on rows 1000·t … 1000·t + 999: it reads
  those rows of the aggregate and of the per-row scale (a column), and the whole bias vector, and writes
  aggregate · scale + bias to the same rows of the result.  The ten row blocks tile the array, so the result array ends
  holding, at (r, q), aggregate (r, q) · scale (r, 0) + bias (q).
-/
import proofs.«112239_j19911468384503_1_alg».proof.Proof.Gen.KernelIdeal.Frame
import proofs.«112239_j19911468384503_1_alg».proof.Proof.LibBroadcastColumn
import Idealize.ShloMosaic.Lib.Pipeline.Value
import Idealize.ShloMosaic.Lib.ValueIdx
import Idealize.ShloMosaic.Lib.ValueLayout

noncomputable section

namespace Cert.KernelIdeal.ScaleBias

open Cert.KernelIdeal Cert.KernelIdeal.Gen Idealize.ShloMosaic Idealize.ShloMosaic.TcCoe Idealize.SL.Sem
open Idealize.ShloMosaic.ValueIdx Cert.Gcn
open Idealize.ShloMosaic.Pipeline (Dat)

/-- The region's result as one function of the aggregate, the scale column and the bias. -/
def scaleBias (a : S10000x512.Idx → EReal) (n : S10000x1.Idx → EReal) (b : S512.Idx → EReal) : S10000x512.Idx → EReal :=
  fun i => a i * n (ix2 (n0 := 10000) (n1 := 1) (i 0) 0) + b (ix1 (n := 512) (i 1))

theorem hz2 : (![0, 0] : Fin 2 → Nat) = fun _ => 0 := funext fun a => by fin_cases a <;> rfl
theorem hz1 : (![0] : Fin 1 → Nat) = fun _ => 0 := funext fun a => by fin_cases a; rfl

/-- The body's stored value at entry (p, q) of the block. -/
theorem pay_apply (v0 : Vec Ideal S512 .f32) (v4 : Vec Ideal S1000x512 .f32) (v6 : Vec Ideal S1000x1 .f32) (p : Fin 1000) (q : Fin 512) :
    k1_pay1 (F := Ideal) v0 v4 v6 (ix2 p q) = v4 (ix2 p q) * v6 (ix2 p (0 : Fin 1)) + v0 (ix1 q) := by
  unfold k1_pay1
  rw [addf_apply, mulf_apply, shapeCast_self, broadcastTo_a1_ab_apply, broadcastTo_1b_ab_apply, shapeCast_self,
    shapeCast_a_1a_apply]

variable (V : (c : Dev nD) → (b : Ref sig .tc) → Buf (Elt Ideal) ((c : Thread nD τ).loc b))

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The aggregate's block at point `t` is rows 1000·t … of the array. -/
theorem agg_block (c : Dev nD) (t : Fin cfg1.N) (x : S1000x512.Idx) (k : S10000x512.Idx)
    (hk0 : (k 0).val = t.val * 1000 + (x 0).val) (hk1 : (k 1).val = (x 1).val) :
    (iblk1 V c 0 t : Vec Ideal S1000x512 .f32) x = (V c main_v10 : S10000x512.Idx → EReal) k := by
  obtain ⟨e0, e1, -⟩ := idx_facts t
  unfold iblk1
  rw [View.read_apply]
  show (V c main_v10 : S10000x512.Idx → EReal) _ = _
  congr 1
  funext a
  apply Fin.ext
  match a with
  | ⟨0, _⟩ => show win1_0.index t (0 : Fin 2) * 1000 + 1 * (x 0).val = (k 0).val; rw [e0, hk0]; omega
  | ⟨1, _⟩ => show win1_0.index t (1 : Fin 2) * 512 + 1 * (x 1).val = (k 1).val; rw [e1, hk1]; omega

/-- The scale's block at point `t` is rows 1000·t … of the column. -/
theorem scale_block (c : Dev nD) (t : Fin cfg1.N) (x : S1000x1.Idx) (k : S10000x1.Idx)
    (hk0 : (k 0).val = t.val * 1000 + (x 0).val) :
    (iblk1 V c 1 t : Vec Ideal S1000x1 .f32) x = (V c main_arg1 : S10000x1.Idx → EReal) k := by
  obtain ⟨-, -, e0, e1, -⟩ := idx_facts t
  unfold iblk1
  rw [View.read_apply]
  show (V c main_arg1 : S10000x1.Idx → EReal) _ = _
  congr 1
  funext a
  apply Fin.ext
  match a with
  | ⟨0, _⟩ => show win1_1.index t (0 : Fin 2) * 1000 + 1 * (x 0).val = (k 0).val; rw [e0, hk0]; omega
  | ⟨1, _⟩ =>
    show win1_1.index t (1 : Fin 2) * 1 + 1 * (x 1).val = (k 1).val
    have h1 : (x 1).val < 1 := (x 1).isLt
    have h2 : (k 1).val < 1 := (k 1).isLt
    rw [e1]; omega

/-- The bias's block at every point is the whole vector. -/
theorem bias_block (c : Dev nD) (t : Fin cfg1.N) (x : S512.Idx) :
    (iblk1 V c 2 t : Vec Ideal S512 .f32) x = (V c main_arg3 : S512.Idx → EReal) x := by
  obtain ⟨-, -, -, -, e0, -⟩ := idx_facts t
  unfold iblk1
  rw [View.read_apply]
  show (V c main_arg3 : S512.Idx → EReal) _ = _
  congr 1
  funext a
  apply Fin.ext
  match a with
  | ⟨0, _⟩ => show win1_2.index t (0 : Fin 1) * 512 + 1 * (x 0).val = (x 0).val; rw [e0]; omega

/-- What point `t` writes back is block `t` of `scaleBias` of the arrays as the region finds them. -/
theorem flushed_eq (c : Dev nD) (t : Fin cfg1.N) :
    (dat1 V c).flushed 3 t = ((cfg1.win 3).blk t).view.read (Elt Ideal)
      (scaleBias (V c main_v10) (V c main_arg1) (V c main_arg3)) := by
  show (cfg1.win 3).cut (grid1.coords t) ((dat1 V c).after 3 t) = _
  rw [after1_3]
  unfold out1_3
  rw [View.canon_unit_zero hz2]
  simp only [View.ld_unit_zero (S := S1000x512) hz2, View.ld_unit_zero (S := S1000x1) hz2, View.ld_unit_zero (S := S512) hz1]
  obtain ⟨-, -, -, -, -, e0, e1⟩ := idx_facts t
  funext j
  obtain ⟨p, q, rfl⟩ : ∃ (p : Fin 1000) (q : Fin 512), j = ix2 p q := ⟨j 0, j 1, eq_ix2 j⟩
  show k1_pay1 (F := Ideal) (iblk1 V c 2 t) (iblk1 V c 0 t) (iblk1 V c 1 t) (ix2 p q)
    = scaleBias (V c main_v10) (V c main_arg1) (V c main_arg3) (((cfg1.win 3).blk t).view.emb (ix2 p q))
  rw [pay_apply]
  have hk0 : ((((cfg1.win 3).blk t).view.emb (ix2 p q)) 0).val = t.val * 1000 + p.val := by
    show win1_3.index t (0 : Fin 2) * 1000 + 1 * p.val = _; rw [e0]; omega
  have hk1 : ((((cfg1.win 3).blk t).view.emb (ix2 p q)) 1).val = q.val := by
    show win1_3.index t (1 : Fin 2) * 512 + 1 * q.val = _; rw [e1]; omega
  unfold scaleBias
  rw [agg_block V c t (ix2 p q) (((cfg1.win 3).blk t).view.emb (ix2 p q)) hk0 hk1,
    scale_block V c t (ix2 p (0 : Fin 1)) (ix2 (n0 := 10000) (n1 := 1) ((((cfg1.win 3).blk t).view.emb (ix2 p q)) 0) 0) hk0,
    bias_block V c t (ix1 q)]
  congr 2
  funext a
  apply Fin.ext
  match a with
  | ⟨0, _⟩ => exact hk1.symm

/-- An index of the result array is in point `t`'s block iff each coordinate is in the block's range on its axis. -/
theorem mem_blk (t : Fin cfg1.N) (i : S10000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v11).slice (win1_3.rect t)).set ↔ _
  rw [View.set_slice_whole, Rect.mem_set_unit]
  exact Iff.rfl

/-- Row r lies in the block of point r / 1000: the ten row blocks cover the array. -/
theorem covered (i : S10000x512.Idx) : ∃ t : Fin cfg1.N, (cfg1.win 3).flush t = true ∧ i ∈ ((cfg1.win 3).blk t).view.set := by
  have hi0 : (i 0).val < 10000 := (i 0).isLt
  have hi1 : (i 1).val < 512 := (i 1).isLt
  have hN : cfg1.N = 10 := N_1
  let t : Fin cfg1.N := ⟨(i 0).val / 1000, by rw [hN]; omega⟩
  have ht : t.val = (i 0).val / 1000 := rfl
  obtain ⟨e0, e1⟩ : win1_3.index t (0 : Fin 2) = t.val ∧ win1_3.index t (1 : Fin 2) = 0 := by
    have h := idx_facts t; exact ⟨h.2.2.2.2.2.1, h.2.2.2.2.2.2⟩
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    rw [e0, ht]; omega
  | ⟨1, _⟩ =>
    show win1_3.index t (1 : Fin 2) * 512 ≤ (i 1).val ∧ (i 1).val < win1_3.index t (1 : Fin 2) * 512 + 512
    rw [e1]; omega

/-- The result array after the region: `scaleBias` of the arrays as the region finds them. -/
theorem final (c : Dev nD) : (dat1 V c).arrAt 3 cfg1.N = scaleBias (V c main_v10) (V c main_arg1) (V c main_arg3) :=
  (dat1 V c).arrAt_eq_of_cover 3 (scaleBias (V c main_v10) (V c main_arg1) (V c main_arg3)) (fun t _ => flushed_eq V c t) covered

end Cert.KernelIdeal.ScaleBias

end
-- ==== Proof.Middle.lean ====
/-
  The host operations between the two kernel regions, as one function: the source indices (a negative one wrapped
  around by the row count) pick rows of the first region's result, and the picked rows are summed into the rows the
  destination indices name, starting from zero.  The function is kept closed: the reference applies the same operations
  to its own product, so only its argument has to be compared.
-/
import proofs.«112239_j19911468384503_1_alg».proof.Proof.Gen.KernelIdeal.Frame
import Idealize.ShloMosaic.Lib.StableHlo.Run

noncomputable section

namespace Cert.KernelIdeal.Middle

open Cert.KernelIdeal Cert.KernelIdeal.Gen Idealize.ShloMosaic Idealize.ShloMosaic.TcCoe Idealize.SL.Sem
open Idealize.ShloMosaic.StableHlo

variable {F : FTy → Type} [FloatOps F]

/-- Rows of `x` gathered at the (wrapped) source indices and summed into the rows the destination indices name. -/
def aggregate (x : (⟨S10000x512, .f32⟩ : BufTy).Contents (Elt F)) (src dst : (⟨S160000, .i32⟩ : BufTy).Contents (Elt F)) :
    (⟨S10000x512, .f32⟩ : BufTy).Contents (Elt F) :=
  Host.scatterAdd scatter_S10000x512_S160000x1_S160000x512_1_0_0_1
    (broadcastInDim S10000x512 ![] bcast_S_S10000x512 (constant S_ .f32 0x00000000#32))
    (broadcastInDim S160000x1 ![0] bcast_S160000_S160000x1_0 dst)
    (Host.gather gather_S10000x512_S160000x1_S160000x512_1_0_n_n_0_1_1512 x
      (broadcastInDim S160000x1 ![0] bcast_S160000_S160000x1_0
        (select (cmpi .slt src (broadcastInDim S160000 ![] bcast_S_S160000 (constantI S_ 32 0#32)))
          (addi src (broadcastInDim S160000 ![] bcast_S_S160000 (constantI S_ 32 10000#32))) src)))

variable (m : (ℓ : Loc nD τ sig) → Buf (Elt F) ℓ) (ρ : Dev nD → PrngReg)

/-- When the second region is entered its first operand holds the aggregate of what the first region left. -/
theorem entry_agg (c : Dev nD) :
    W2 m ρ c (Proc.devRef .tc main_v10)
      = aggregate (W1 m ρ c (Proc.devRef .tc main_v0)) (W1 m ρ c (Proc.devRef .tc main_arg4)) (W1 m ρ c (Proc.devRef .tc main_arg5)) := by
  show StableHlo.after hostOps1 (W1 m ρ c) (Proc.devRef .tc main_v10) = _
  after_results
  rfl

/-- The index arrays are as launched when the host operations read them. -/
theorem W1_src (c : Dev nD) : W1 m ρ c (Proc.devRef .tc main_arg4) = m ((c : Thread nD τ).loc main_arg4) :=
  W1_of_ne m ρ c main_arg4 (by decide)
theorem W1_dst (c : Dev nD) : W1 m ρ c (Proc.devRef .tc main_arg5) = m ((c : Thread nD τ).loc main_arg5) :=
  W1_of_ne m ρ c main_arg5 (by decide)

/-- The scale column and the bias are as launched when the second region is entered. -/
theorem entry_scale (c : Dev nD) : W2 m ρ c (Proc.devRef .tc main_arg1) = m ((c : Thread nD τ).loc main_arg1) :=
  ((W3_arr m ρ c 1).trans (((dat1 (V2 m ρ) c).arrAt_in 1 rfl _).trans (A_eq1 (V2 m ρ) c 1))).symm.trans (W3_main_arg1 m ρ c)
theorem entry_bias (c : Dev nD) : W2 m ρ c (Proc.devRef .tc main_arg3) = m ((c : Thread nD τ).loc main_arg3) :=
  ((W3_arr m ρ c 2).trans (((dat1 (V2 m ρ) c).arrAt_in 2 rfl _).trans (A_eq1 (V2 m ρ) c 2))).symm.trans (W3_main_arg3 m ρ c)

end Cert.KernelIdeal.Middle

end
-- ==== Proof.KernelValue.lean ====
/-
  The kernel program's result array as one function of the argument arrays: the second region's function of the
  aggregate of the first region's function.  The segment boundaries are walked back from the result: the second
  region's exit, its entry (the host operations' results over the first region's exit), and the launch memory.
-/
import proofs.«112239_j19911468384503_1_alg».proof.Proof.Region0
import proofs.«112239_j19911468384503_1_alg».proof.Proof.Region1
import proofs.«112239_j19911468384503_1_alg».proof.Proof.Middle

noncomputable section

namespace Cert.KernelIdeal.WholeValue

open Cert.KernelIdeal Cert.KernelIdeal.Gen Idealize.ShloMosaic Idealize.ShloMosaic.TcCoe Idealize.SL.Sem
open Cert.KernelIdeal.MatmulNorm (scaledProduct)
open Cert.KernelIdeal.ScaleBias (scaleBias)
open Cert.KernelIdeal.Middle (aggregate)

variable (m : (ℓ : Loc nD τ sig) → Buf (Elt Ideal) ℓ) (ρ : Dev nD → PrngReg)

/-- The composed function of the launch contents. -/
def result (c : Dev nD) : S10000x512.Idx → EReal :=
  scaleBias (aggregate (F := Ideal)
      (scaledProduct (m ((c : Thread nD τ).loc main_arg0)) (m ((c : Thread nD τ).loc main_arg2)) (m ((c : Thread nD τ).loc main_arg1)))
      (m ((c : Thread nD τ).loc main_arg4)) (m ((c : Thread nD τ).loc main_arg5)))
    (m ((c : Thread nD τ).loc main_arg1)) (m ((c : Thread nD τ).loc main_arg3))

/-- What the first region leaves in its result array. -/
theorem first_exit (c : Dev nD) :
    W1 m ρ c (Proc.devRef .tc main_v0)
      = scaledProduct (m ((c : Thread nD τ).loc main_arg0)) (m ((c : Thread nD τ).loc main_arg2)) (m ((c : Thread nD τ).loc main_arg1)) :=
  (W1_arr m ρ c 3).trans (Cert.KernelIdeal.MatmulNorm.final (V0 m ρ) c)

/-- What the second region leaves in the program's result array. -/
theorem last_exit (c : Dev nD) : W3 m ρ c (Proc.devRef .tc main_v11) = result m c := by
  have h1 : W3 m ρ c (Proc.devRef .tc main_v11)
      = scaleBias (W2 m ρ c (Proc.devRef .tc main_v10)) (W2 m ρ c (Proc.devRef .tc main_arg1)) (W2 m ρ c (Proc.devRef .tc main_arg3)) :=
    (W3_arr m ρ c 3).trans (Cert.KernelIdeal.ScaleBias.final (V2 m ρ) c)
  rw [h1, Cert.KernelIdeal.Middle.entry_agg, first_exit, Cert.KernelIdeal.Middle.W1_src, Cert.KernelIdeal.Middle.W1_dst,
    Cert.KernelIdeal.Middle.entry_scale, Cert.KernelIdeal.Middle.entry_bias]
  rfl

end Cert.KernelIdeal.WholeValue

end
-- ==== Proof.RefValue.lean ====
/-
  The reference's result is the kernel's composed function of the argument arrays.  The reference forms the product of
  features and weight with the host's contraction and scales it by the broadcast column: entry by entry that is the
  kernel's first region's function (both contractions are the plain sum over the contracted coordinate).  It then applies
  the same gather and scatter-add, and ends with the same scaling and bias, read at an index through its broadcasts.
-/
import proofs.«112239_j19911468384503_1_alg».proof.Defs
import proofs.«112239_j19911468384503_1_alg».proof.Proof.Gen.ReferenceIdeal.Run
import proofs.«112239_j19911468384503_1_alg».proof.Proof.Gen.ReferenceIdeal.Read
import proofs.«112239_j19911468384503_1_alg».proof.Proof.Region0
import proofs.«112239_j19911468384503_1_alg».proof.Proof.Region1
import proofs.«112239_j19911468384503_1_alg».proof.Proof.Middle
import proofs.«112239_j19911468384503_1_alg».proof.Proof.LibMatmulPlain

noncomputable section

namespace Cert.ReferenceIdeal.RefValue

open Cert.ReferenceIdeal Cert.ReferenceIdeal.Gen Cert.ReferenceIdeal.Read
open Idealize.ShloMosaic Idealize.ShloMosaic.ValueIdx Cert.Gcn
open Cert.KernelIdeal.MatmulNorm (scaledProduct)
open Cert.KernelIdeal.ScaleBias (scaleBias)
open Cert.KernelIdeal.Middle (aggregate)

/-- The reference's contraction has the plain pattern: left columns against right rows, no batch axis. -/
theorem dot_plain : IsPlain (M := 10000) (K := 512) (N := 512) dot_S10000x512_S512x512_S10000x512_1_0_0_1_n_n :=
  ⟨rfl, rfl, rfl, rfl, rfl, rfl⟩

/-- The reference's scaled product is the first region's function of the arrays. -/
theorem product_eq (x0 : S10000x512.Idx → EReal) (x1 : S10000x1.Idx → EReal) (x2 : S512x512.Idx → EReal) :
    val_main_v2 (F := Ideal) x0 x1 x2 = scaledProduct x0 x2 x1 := by
  funext i
  obtain ⟨p, q, rfl⟩ : ∃ (p : Fin 10000) (q : Fin 512), i = ix2 p q := ⟨i 0, i 1, eq_ix2 i⟩
  rw [val_main_v2_apply, val_main_v1_apply]
  unfold val_main_v0 scaledProduct
  rw [dotGeneral_plain_apply (M := 10000) (K := 512) (N := 512) dot_S10000x512_S512x512_S10000x512_1_0_0_1_n_n dot_plain]
  show (∑ l : Fin 512, x0 (ix2 p l) * x2 (ix2 l q)) * x1 (idx_main_v1 (ix2 p q)) = _
  congr 2
  funext a
  match a with
  | ⟨0, _⟩ => rfl
  | ⟨1, _⟩ => rfl

/-- The reference's result is the second region's function of the aggregate of the first region's function. -/
theorem result_eq (x0 : S10000x512.Idx → EReal) (x1 : S10000x1.Idx → EReal) (x2 : S512x512.Idx → EReal)
    (x3 : S512.Idx → EReal) (x4 x5 : (⟨S160000, .i32⟩ : BufTy).Contents (Elt Ideal)) :
    val_main_v17 (F := Ideal) x0 x1 x2 x3 x4 x5 = scaleBias (aggregate (F := Ideal) (scaledProduct x0 x2 x1) x4 x5) x1 x3 := by
  have hagg : val_main_v12 (F := Ideal) x0 x1 x2 x4 x5 = aggregate (F := Ideal) (scaledProduct x0 x2 x1) x4 x5 := by
    rw [← product_eq x0 x1 x2]
    rfl
  funext i
  rw [val_main_v17_apply, val_main_v14_apply, val_main_v13_apply, val_main_v16_apply, val_main_v15_apply, hagg]
  unfold scaleBias
  show aggregate (F := Ideal) (scaledProduct x0 x2 x1) x4 x5 i * x1 (idx_main_v13 i) + x3 (idx_main_v15 (idx_main_v16 i)) = _
  congr 3
  · funext a
    match a with
    | ⟨0, _⟩ => rfl
    | ⟨1, _⟩ => rfl
  · funext a
    match a with
    | ⟨0, _⟩ => rfl

end Cert.ReferenceIdeal.RefValue

end
-- ==== Proof.lean ====
/-
  A graph-convolution layer: out = segment_sum ((h · W) ⊙ norm)[src] into dst, then ⊙ norm, + bias.

  The kernel program runs a matrix-product region (row blocks of 1000: (h · W) scaled row by row by the column norm),
  then on the host gathers rows at the source indices and sums them into the destination rows, then a pointwise region
  (row blocks of 1000: aggregate · norm + bias).  The reference does the same with the host's contraction and broadcasts.

  On the extended reals a change of float format is the identity and both contractions are the plain sum over the
  contracted coordinate, so the first region's result array is, entry by entry, the reference's scaled product.  The
  gather and scatter-add between the regions are the same operations on both sides and are never opened: they are
  applied to equal arrays.  The last step is the same pointwise expression, read through the reference's broadcasts.
  No algebraic law is used beyond that, so the precondition (finite inputs) is not needed for the value claim.

  The frames of the two kernel programs are the generated ones; the reference's frame is its generated run with the
  result dropped; the idealization rewrote no operation, so `preserves` is trivial.
-/
import proofs.«112239_j19911468384503_1_alg».proof.Defs
import proofs.«112239_j19911468384503_1_alg».proof.Proof.Gen.Kernel
import proofs.«112239_j19911468384503_1_alg».proof.Proof.Gen.Kernel.Skeleton
import proofs.«112239_j19911468384503_1_alg».proof.Proof.Gen.Kernel.Launch
import proofs.«112239_j19911468384503_1_alg».proof.Proof.Gen.Kernel.Points
import proofs.«112239_j19911468384503_1_alg».proof.Proof.Gen.Kernel.Frame
import proofs.«112239_j19911468384503_1_alg».proof.Proof.Gen.KernelIdeal
import proofs.«112239_j19911468384503_1_alg».proof.Proof.Gen.KernelIdeal.Skeleton
import proofs.«112239_j19911468384503_1_alg».proof.Proof.Gen.KernelIdeal.Launch
import proofs.«112239_j19911468384503_1_alg».proof.Proof.Gen.KernelIdeal.Points
import proofs.«112239_j19911468384503_1_alg».proof.Proof.Gen.KernelIdeal.Frame
import proofs.«112239_j19911468384503_1_alg».proof.Proof.Gen.ReferenceIdeal
import proofs.«112239_j19911468384503_1_alg».proof.Proof.Gen.ReferenceIdeal.Run
import proofs.«112239_j19911468384503_1_alg».proof.Proof.Gen.ReferenceIdeal.Read
import proofs.«112239_j19911468384503_1_alg».proof.Proof.Gen.Pre_finite_inputs
import proofs.«112239_j19911468384503_1_alg».proof.Proof.KernelRun
import proofs.«112239_j19911468384503_1_alg».proof.Proof.KernelValue
import proofs.«112239_j19911468384503_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at the second region's function of the aggregate of the first region's
    function of the launch contents: the kernel program by walking its segment boundaries back, the reference by reading
    its composed term. -/
theorem algebraic : Cert.algebraic_KernelIdeal_ReferenceIdeal := by
  intro m ρ m' ρ' _ hagree
  refine ⟨fun c => Cert.KernelIdeal.WholeValue.result m c, ?_, ?_⟩
  · exact (θ_run Cert.KernelIdeal.defs _ _).mono
      (fun _ h c => ⟨(h c).1.trans (Cert.KernelIdeal.WholeValue.last_exit m ρ c), (h c).2⟩)
      (Cert.KernelIdeal.RunV.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [e0, e1, e2, e3, e4, e5]
    exact (Cert.ReferenceIdeal.Read.val_main_v17_eq _ _ _ _ _ _).trans (Cert.ReferenceIdeal.RefValue.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
